-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x64 : Shape := ⟨2, ![250000, 64]⟩
abbrev S4000000 : Shape := ⟨1, ![4000000]⟩
abbrev S64x64 : Shape := ⟨2, ![64, 64]⟩
abbrev S64 : Shape := ⟨1, ![64]⟩
abbrev S_ : Shape := ⟨0, ![]⟩

class Facts : Prop where
  bcast_S_S250000x64 : S_.BroadcastsInDim S250000x64 (![] : Fin 0 → Fin S250000x64.rank)
  reducesTo_S250000x64_S_d0_1 : S250000x64.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S250000x64 .f32) (main_arg1 : IVec S4000000 32) (main_arg2 : IVec S4000000 32) (main_arg3 : FVec F S4000000 .f32) (main_arg4 : FVec F S64x64 .f32) (main_arg5 : FVec F S64 .f32) (main_arg6 : FVec F S64x64 .f32) (main_arg7 : FVec F S64 .f32) : IVec S_ 1 :=
  let main_v0 : FVec F S250000x64 .f32 := Host.absf main_arg0
  let main_cst : FVec F S_ .f32 := constant S_ .f32 0x7F800000#32
  let main_v1 : FVec F S250000x64 .f32 := broadcastInDim S250000x64 ![] bcast_S_S250000x64 main_cst
  let main_v2 : IVec S250000x64 1 := cmpf .olt main_v0 main_v1
  let main_c : IVec S_ 1 := constantI S_ 1 1#1
  let main_v3 : IVec S_ 1 := (fun x v => Host.reduce IntOp.andi x v reducesTo_S250000x64_S_d0_1 h_S_) main_v2 main_c
  let main_v4 : FVec F S4000000 .f32 := Host.absf main_arg3
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S250000x64 : Shape := ⟨2, ![250000, 64]⟩
abbrev S4000000 : Shape := ⟨1, ![4000000]⟩
abbrev S64x64 : Shape := ⟨2, ![64, 64]⟩
abbrev S64 : Shape := ⟨1, ![64]⟩
abbrev S4000000x1 : Shape := ⟨2, ![4000000, 1]⟩
abbrev S_ : Shape := ⟨0, ![]⟩
abbrev S4000000x64 : Shape := ⟨2, ![4000000, 64]⟩
abbrev S125000x128 : Shape := ⟨2, ![125000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩

abbrev nBuf : Space → Nat
  | .hbm => 64
  | .vmem => 16
  | .smem => 0
  | _ => 0

abbrev bufTy : (tb : Table) → Fin (tcTables nBuf tb) → BufTy
  | .hbm, ⟨0, _⟩ => ⟨S250000x64, .f32⟩
  | .hbm, ⟨1, _⟩ => ⟨S4000000, .i32⟩
  | .hbm, ⟨2, _⟩ => ⟨S4000000, .i32⟩
  | .hbm, ⟨3, _⟩ => ⟨S4000000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S4000000x1, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x64, .f32⟩
  | .hbm, ⟨19, _⟩ => ⟨S4000000x64, .f32⟩
  | .hbm, ⟨20, _⟩ => ⟨S_, .f32⟩
  | .hbm, ⟨21, _⟩ => ⟨S250000x64, .f32⟩
  | .hbm, ⟨22, _⟩ => ⟨S4000000x1, .i32⟩
  | .hbm, ⟨23, _⟩ => ⟨S250000x64, .f32⟩
  | .hbm, ⟨24, _⟩ => ⟨S125000x128, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x128, .f32⟩
  | .hbm, ⟨29, _⟩ => ⟨S64x128, .f32⟩
  | .hbm, ⟨30, _⟩ => ⟨S128x128, .f32⟩
  | .hbm, ⟨31, _⟩ => ⟨S128, .f32⟩
  | .hbm, ⟨32, _⟩ => ⟨S1x128, .f32⟩
  | .hbm, ⟨33, _⟩ => ⟨S125000x128, .f32⟩
  | .hbm, ⟨34, _⟩ => ⟨S250000x64, .f32⟩
  | .hbm, ⟨35, _⟩ => ⟨S4000000x1, .f32⟩
  | .hbm, ⟨36, _⟩ => ⟨S_, .i32⟩
  | .hbm, ⟨37, _⟩ => ⟨S4000000, .i32⟩
  | .hbm, ⟨38, _⟩ => ⟨S4000000, .i1⟩
  | .hbm, ⟨39, _⟩ => ⟨S_, .i32⟩
  | .hbm, ⟨40, _⟩ => ⟨S4000000, .i32⟩
  | .hbm, ⟨41, _⟩ => ⟨S4000000, .i32⟩
  | .hbm, ⟨42, _⟩ => ⟨S4000000, .i32⟩
  | .hbm, ⟨43, _⟩ => ⟨S4000000x1, .i32⟩
  | .hbm, ⟨44, _⟩ => ⟨S4000000x64, .f32⟩
  | .hbm, ⟨45, _⟩ => ⟨S4000000x64, .f32⟩
  | .hbm, ⟨46, _⟩ => ⟨S4000000x64, .f32⟩
  | .hbm, ⟨47, _⟩ => ⟨S_, .f32⟩
  | .hbm, ⟨48, _⟩ => ⟨S250000x64, .f32⟩
  | .hbm, ⟨49, _⟩ => ⟨S4000000x1, .i32⟩
  | .hbm, ⟨50, _⟩ => ⟨S250000x64, .f32⟩
  | .hbm, ⟨51, _⟩ => ⟨S125000x128, .f32⟩
  | .hbm, ⟨52, _⟩ => ⟨S125000x128, .f32⟩
  | .hbm, ⟨53, _⟩ => ⟨S125000x128, .f32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x128, .f32⟩
  | .hbm, ⟨58, _⟩ => ⟨S64x128, .f32⟩
  | .hbm, ⟨59, _⟩ => ⟨S128x128, .f32⟩
  | .hbm, ⟨60, _⟩ => ⟨S128, .f32⟩
  | .hbm, ⟨61, _⟩ => ⟨S1x128, .f32⟩
  | .hbm, ⟨62, _⟩ => ⟨S125000x128, .f32⟩
  | .hbm, ⟨63, _⟩ => ⟨S250000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S250000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S250000x64 : S_.BroadcastsInDim S250000x64 (![] : Fin 0 → Fin S250000x64.rank)
  shapeCasts_S250000x64_S125000x128 : S250000x64.ShapeCasts S125000x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S125000x128_S250000x64 : S125000x128.ShapeCasts S250000x64
  gather_S250000x64_S4000000x1_S4000000x64_1_0_n_n_0_1_164_wf : GatherDims.WF S250000x64 S4000000x1 S4000000x64 [1] [0] [] [0] [] 1 ![1, 64]
  scatter_S250000x64_S4000000x1_S4000000x64_1_0_0_1_wf : ScatterDims.WF S250000x64 S4000000x1 S4000000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S125000x128.size a
  hwx0_3 : ∀ i : grid0.Coords, EltTy.bits .f32 = 32 ∨ (Rect.block (s := S125000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S125000x128.size a
  hwx1_0 : ∀ i : grid1.Coords, EltTy.bits .f32 = 32 ∨ (Rect.block (s := S125000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S125000x128.size a
  hwx1_1 : ∀ i : grid1.Coords, EltTy.bits .f32 = 32 ∨ (Rect.block (s := S125000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S125000x128.size a
  hwx1_2 : ∀ i : grid1.Coords, EltTy.bits .f32 = 32 ∨ (Rect.block (s := S125000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S125000x128.size a
  hwx1_5 : ∀ i : grid1.Coords, EltTy.bits .f32 = 32 ∨ (Rect.block (s := S125000x128) S5000x128.size (cc1_transform_5 i) (hinb1_5 i)).WholeWords (EltTy.packing .f32)

variable [Facts₀]

def gather_S250000x64_S4000000x1_S4000000x64_1_0_n_n_0_1_164 : GatherDims S250000x64 S4000000x1 S4000000x64 where
  offsetDims := [1]
  collapsedSliceDims := [0]
  operandBatchingDims := []
  startIndicesBatchingDims := []
  startIndexMap := [0]
  indexVectorDim := 1
  sliceSizes := ![1, 64]
  wf := gather_S250000x64_S4000000x1_S4000000x64_1_0_n_n_0_1_164_wf
def scatter_S250000x64_S4000000x1_S4000000x64_1_0_0_1 : ScatterDims S250000x64 S4000000x1 S4000000x64 where
  updateWindowDims := [1]
  insertedWindowDims := [0]
  scatterDimsToOperandDims := [0]
  indexVectorDim := 1
  wf := scatter_S250000x64_S4000000x1_S4000000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S250000x64 : Shape := ⟨2, ![250000, 64]⟩
abbrev S4000000 : Shape := ⟨1, ![4000000]⟩
abbrev S64x64 : Shape := ⟨2, ![64, 64]⟩
abbrev S64 : Shape := ⟨1, ![64]⟩
abbrev S4000000x1 : Shape := ⟨2, ![4000000, 1]⟩
abbrev S_ : Shape := ⟨0, ![]⟩
abbrev S4000000x64 : Shape := ⟨2, ![4000000, 64]⟩
abbrev S1x64 : Shape := ⟨2, ![1, 64]⟩
abbrev S1x250000x64 : Shape := ⟨3, ![1, 250000, 64]⟩
abbrev S3x250000x64 : Shape := ⟨3, ![3, 250000, 64]⟩

abbrev nBuf : Space → Nat
  | .hbm => 59
  | .vmem => 0
  | .smem => 0
  | _ => 0

abbrev bufTy : (tb : Table) → Fin (tcTables nBuf tb) → BufTy
  | .hbm, ⟨0, _⟩ => ⟨S250000x64, .f32⟩
  | .hbm, ⟨1, _⟩ => ⟨S4000000, .i32⟩
  | .hbm, ⟨2, _⟩ => ⟨S4000000, .i32⟩
  | .hbm, ⟨3, _⟩ => ⟨S4000000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S4000000x1, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x64, .f32⟩
  | .hbm, ⟨19, _⟩ => ⟨S4000000x64, .f32⟩
  | .hbm, ⟨20, _⟩ => ⟨S_, .f32⟩
  | .hbm, ⟨21, _⟩ => ⟨S250000x64, .f32⟩
  | .hbm, ⟨22, _⟩ => ⟨S4000000x1, .i32⟩
  | .hbm, ⟨23, _⟩ => ⟨S250000x64, .f32⟩
  | .hbm, ⟨24, _⟩ => ⟨S64x64, .f32⟩
  | .hbm, ⟨25, _⟩ => ⟨S250000x64, .f32⟩
  | .hbm, ⟨26, _⟩ => ⟨S1x64, .f32⟩
  | .hbm, ⟨27, _⟩ => ⟨S250000x64, .f32⟩
  | .hbm, ⟨28, _⟩ => ⟨S250000x64, .f32⟩
  | .hbm, ⟨29, _⟩ => ⟨S4000000x1, .f32⟩
  | .hbm, ⟨30, _⟩ => ⟨S_, .i32⟩
  | .hbm, ⟨31, _⟩ => ⟨S4000000, .i32⟩
  | .hbm, ⟨32, _⟩ => ⟨S4000000, .i1⟩
  | .hbm, ⟨33, _⟩ => ⟨S_, .i32⟩
  | .hbm, ⟨34, _⟩ => ⟨S4000000, .i32⟩
  | .hbm, ⟨35, _⟩ => ⟨S4000000, .i32⟩
  | .hbm, ⟨36, _⟩ => ⟨S4000000, .i32⟩
  | .hbm, ⟨37, _⟩ => ⟨S4000000x1, .i32⟩
  | .hbm, ⟨38, _⟩ => ⟨S4000000x64, .f32⟩
  | .hbm, ⟨39, _⟩ => ⟨S4000000x64, .f32⟩
  | .hbm, ⟨40, _⟩ => ⟨S4000000x64, .f32⟩
  | .hbm, ⟨41, _⟩ => ⟨S_, .f32⟩
  | .hbm, ⟨42, _⟩ => ⟨S250000x64, .f32⟩
  | .hbm, ⟨43, _⟩ => ⟨S4000000x1, .i32⟩
  | .hbm, ⟨44, _⟩ => ⟨S250000x64, .f32⟩
  | .hbm, ⟨45, _⟩ => ⟨S64x64, .f32⟩
  | .hbm, ⟨46, _⟩ => ⟨S250000x64, .f32⟩
  | .hbm, ⟨47, _⟩ => ⟨S1x64, .f32⟩
  | .hbm, ⟨48, _⟩ => ⟨S250000x64, .f32⟩
  | .hbm, ⟨49, _⟩ => ⟨S250000x64, .f32⟩
  | .hbm, ⟨50, _⟩ => ⟨S1x250000x64, .f32⟩
  | .hbm, ⟨51, _⟩ => ⟨S1x250000x64, .f32⟩
  | .hbm, ⟨52, _⟩ => ⟨S1x250000x64, .f32⟩
  | .hbm, ⟨53, _⟩ => ⟨S3x250000x64, .f32⟩
  | .hbm, ⟨54, _⟩ => ⟨S_, .f32⟩
  | .hbm, ⟨55, _⟩ => ⟨S250000x64, .f32⟩
  | .hbm, ⟨56, _⟩ => ⟨S_, .f32⟩
  | .hbm, ⟨57, _⟩ => ⟨S250000x64, .f32⟩
  | .hbm, ⟨58, _⟩ => ⟨S250000x64, .f32⟩
  | _, _ => ⟨S250000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S250000x64 : S_.BroadcastsInDim S250000x64 (![] : Fin 0 → Fin S250000x64.rank)
  transposes_S64x64_S64x64_1_0 : S64x64.Transposes [1, 0] S64x64
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  bcast_S250000x64_S1x250000x64_1_2 : S250000x64.BroadcastsInDim S1x250000x64 (![1, 2] : Fin 2 → Fin S1x250000x64.rank)
  concatenates_S1x250000x64_S1x250000x64_S1x250000x64_S3x250000x64_d0 : Shape.Concatenates [S1x250000x64, S1x250000x64, S1x250000x64] S3x250000x64 0
  reducesTo_S3x250000x64_S250000x64_d0 : S3x250000x64.ReducesTo [0] S250000x64
  h_S_ : 0 < S_.numel
  gather_S250000x64_S4000000x1_S4000000x64_1_0_n_n_0_1_164_wf : GatherDims.WF S250000x64 S4000000x1 S4000000x64 [1] [0] [] [0] [] 1 ![1, 64]
  scatter_S250000x64_S4000000x1_S4000000x64_1_0_0_1_wf : ScatterDims.WF S250000x64 S4000000x1 S4000000x64 [1] [0] [0] 1
  dot_S250000x64_S64x64_S250000x64_1_0_0_1_n_n_wf : DotDims.WF S250000x64 S64x64 S250000x64 [1] [0] [0] [1] [] []

variable [Facts₀]

def gather_S250000x64_S4000000x1_S4000000x64_1_0_n_n_0_1_164 : GatherDims S250000x64 S4000000x1 S4000000x64 where
  offsetDims := [1]
  collapsedSliceDims := [0]
  operandBatchingDims := []
  startIndicesBatchingDims := []
  startIndexMap := [0]
  indexVectorDim := 1
  sliceSizes := ![1, 64]
  wf := gather_S250000x64_S4000000x1_S4000000x64_1_0_n_n_0_1_164_wf
def scatter_S250000x64_S4000000x1_S4000000x64_1_0_0_1 : ScatterDims S250000x64 S4000000x1 S4000000x64 where
  updateWindowDims := [1]
  insertedWindowDims := [0]
  scatterDimsToOperandDims := [0]
  indexVectorDim := 1
  wf := scatter_S250000x64_S4000000x1_S4000000x64_1_0_0_1_wf
def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf

class Facts : Prop extends Facts₀ where

variable [Facts]
-- ==== Proof.Dense.lean ====
/-
  The dense layer of the graph convolution, in its two layouts.

  A node-feature table has 250000 rows of 64 features. The layer sends row `r` to
  `j ↦ Σ_k a(r,k) · W(j,k) + b(j)` (`dense`). The same table read two rows at a time is a
  125000 × 128 table, and on that layout the layer is one 128-term contraction against a
  128 × 128 weight plus a 1 × 128 bias row (`packedDense`).
-/
import Idealize.ShloMosaic.PureOps.Ideal
import Idealize.ShloMosaic.Lib.ValueIdx

noncomputable section

namespace Cert.Gcn

open Idealize.ShloMosaic Idealize.ShloMosaic.ValueIdx

/-- The node-feature table's shape, and the shape of the same table read two rows at a time. -/
abbrev Rows : Shape := ⟨2, ![250000, 64]⟩
abbrev Pairs : Shape := ⟨2, ![125000, 128]⟩

/-- One entry of the dense layer: `Σ_k a(r,k) · W(j,k) + b(j)`. -/
def denseAt (W : (⟨2, ![64, 64]⟩ : Shape).Idx → EReal) (b : (⟨1, ![64]⟩ : Shape).Idx → EReal)
    (a : Rows.Idx → EReal) (r : Fin 250000) (j : Fin 64) : EReal :=
  (∑ k : Fin 64, a (ix2 r k) * W (ix2 j k)) + b (ix1 j)

/-- The dense layer on the whole table. -/
def dense (W : (⟨2, ![64, 64]⟩ : Shape).Idx → EReal) (b : (⟨1, ![64]⟩ : Shape).Idx → EReal)
    (a : Rows.Idx → EReal) : Rows.Idx → EReal :=
  fun i => denseAt W b a (i 0) (i 1)

/-- One entry of the layer on the two-rows-at-a-time layout: a 128-term contraction and the bias row. -/
def packedDenseAt (A : Pairs.Idx → EReal) (Wb : (⟨2, ![128, 128]⟩ : Shape).Idx → EReal)
    (bb : (⟨2, ![1, 128]⟩ : Shape).Idx → EReal) (p : Fin 125000) (q : Fin 128) : EReal :=
  (∑ k : Fin 128, A (ix2 p k) * Wb (ix2 k q)) + bb (ix2 (0 : Fin 1) q)

/-- The layer on the two-rows-at-a-time layout, whole. -/
def packedDense (A : Pairs.Idx → EReal) (Wb : (⟨2, ![128, 128]⟩ : Shape).Idx → EReal)
    (bb : (⟨2, ![1, 128]⟩ : Shape).Idx → EReal) : Pairs.Idx → EReal :=
  fun i => packedDenseAt A Wb bb (i 0) (i 1)

/-- The mean's factor, one third, as an extended real. -/
def third : EReal := ((1 / 3 : ℝ) : EReal)

/-- The second kernel's result on the two-rows-at-a-time layout: the mean of the input, the first layer and
    the second layer, the second layer computed in place. -/
def packedMean (X H A : Pairs.Idx → EReal) (Wb : (⟨2, ![128, 128]⟩ : Shape).Idx → EReal)
    (bb : (⟨2, ![1, 128]⟩ : Shape).Idx → EReal) : Pairs.Idx → EReal :=
  fun i => ((X i + H i) + packedDense A Wb bb i) * third

end Cert.Gcn

end
-- ==== Proof.Region0.lean ====
/-
  The first kernel's result array: the dense layer on the two-rows-at-a-time layout.

  At every grid point the body multiplies its 5000 × 128 block of rows by the whole 128 × 128 weight and adds
  the bias row, so the block it writes back is the block of `packedDense` of the three arrays the region finds;
  the 25 blocks tile the 125000 rows, so the whole array ends at `packedDense`.
-/
import proofs.«412504_j55190329753905_3_alg».proof.Proof.Gen.KernelIdeal.Frame
import proofs.«412504_j55190329753905_3_alg».proof.Proof.Dense
import Idealize.ShloMosaic.Lib.Pipeline.Value
import Idealize.ShloMosaic.Lib.ValueLayout
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-! ## The block product at an entry -/

/-- The operand indices of the block product at output entry `i` and contraction index `q`: the left operand is read
    at `(i 0, q)`, the right at `(q, i 1)`. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry `(p, q)`: the 128-term sum of products. -/
theorem blockProduct_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The first kernel's stored value at entry `(p, q)` of its block: the row's 128-term product with the weight's
    column, plus the bias row's entry. -/
theorem pay0_at (x0 : Vec Ideal S5000x128 .f32) (x1 : Vec Ideal S128x128 .f32) (x2 : Vec Ideal S1x128 .f32) (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ _).trans ?_
  refine congrArg₂ (· + ·) ?_ ?_
  · refine (blockProduct_at _ _ p q).trans ?_
    refine Finset.sum_congr rfl fun k _ => ?_
    refine congrArg₂ (· * ·) ?_ ?_
    · exact congrFun (shapeCast_self x0 _) _
    · exact congrFun (shapeCast_self x1 _) _
  · refine (broadcastTo_1b_ab_apply _ _ p q).trans ?_
    exact congrFun (shapeCast_self x2 _) _

/-! ## One block -/

/-- Entry `j` of the block the body stores is entry `i` of `packedDense` of three arrays, as soon as the block of rows
    the body loaded holds, on `j`'s row, row `i 0` of the first array, the weight and bias blocks are the whole second
    and third arrays, and `j` and `i` have the same column. -/
theorem block0_eq (x0 : Vec Ideal S5000x128 .f32) (x1 : Vec Ideal S128x128 .f32) (x2 : Vec Ideal S1x128 .f32)
    (A : FVec Ideal S125000x128 .f32) (Wb : FVec Ideal S128x128 .f32) (bb : FVec Ideal S1x128 .f32)
    (j : S5000x128.Idx) (i : S125000x128.Idx)
    (h0 : ∀ k : Fin 128, x0 (ix2 (j 0) k) = A (ix2 (i 0) k)) (h1 : x1 = Wb) (h2 : x2 = bb)
    (hcol : (j 1).val = (i 1).val) :
    k0_pay1 (F := Ideal) x0 x1 x2 j = packedDense A Wb bb i := by
  obtain ⟨p, q, rfl⟩ : ∃ (p : Fin 5000) (q : Fin 128), j = ix2 p q := ⟨j 0, j 1, eq_ix2 j⟩
  have hq : (i 1) = q := Fin.ext hcol.symm
  rw [pay0_at, h1, h2]
  unfold packedDense packedDenseAt
  rw [hq]
  exact congrArg (· + bb (ix2 (0 : Fin 1) q)) (Finset.sum_congr rfl fun k _ => by rw [h0 k])

/-! ## The index maps, decided over the 25 grid points -/

theorem hz : (![0, 0] : Fin 2 → Nat) = fun _ => 0 := funext fun a => by fin_cases a <;> rfl

/-- The block of rows moves with the output block; the weight and the bias stay at block `(0, 0)`; the output's
    block index is `(t, 0)` with `t ≤ 24`. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 24 ∧ win0_3.index t (1 : Fin 2) = 0 :=
  (by decide +kernel : ∀ t : Fin grid0.N, _)

/-- Every block row of the output is some point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

section
variable (V : (c : Dev nD) → (b : Ref sig .tc) → Buf (Elt Ideal) ((c : Thread nD τ).loc b))

/-- What point `t` writes back is block `t` of `packedDense` of the three arrays the region finds. -/
theorem flushed0_eq (c : Dev nD) (t : Fin cfg0.N) :
    (dat0 V c).flushed 3 t = ((cfg0.win 3).blk t).view.read (Elt Ideal)
      (packedDense (V c main_v13) (V c main_v18) (V c main_v20)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts0 t
  funext j
  refine block0_eq (iblk0 V c 0 t) (iblk0 V c 1 t) (iblk0 V c 2 t) (V c main_v13) (V c main_v18) (V c main_v20) j
    (((cfg0.win 3).blk t).view.emb j) (fun k => ?_) ?_ ?_ ?_
  · show V c main_v13 (((cfg0.win 0).blk t).view.emb (ix2 (j 0) k)) = V c main_v13 (ix2 ((((cfg0.win 3).blk t).view.emb j) 0) k)
    refine congrArg (V c main_v13) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · funext y
    show V c main_v18 (((cfg0.win 1).blk t).view.emb y) = V c main_v18 y
    refine congrArg (V c main_v18) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v20 (((cfg0.win 2).blk t).view.emb y) = V c main_v20 y
    refine congrArg (V c main_v20) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show (j 1).val = win0_3.index t (1 : Fin 2) * 128 + 1 * (j 1).val
    omega

/-- An index of the output array is in point `t`'s block iff each coordinate is in the block's range on its axis. -/
theorem mem_blk0 (t : Fin cfg0.N) (i : S125000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v21).slice (win0_3.rect t)).set ↔ _
  rw [View.set_slice_whole, Rect.mem_set_unit]
  exact Iff.rfl

/-- The 25 blocks tile the output array: row `r` lies in the block of point `r / 5000`. -/
theorem cover0 (i : S125000x128.Idx) : ∃ t : Fin cfg0.N, (cfg0.win 3).flush t = true ∧ i ∈ ((cfg0.win 3).blk t).view.set := by
  have hi0 : (i 0).val < 125000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE FIRST KERNEL'S RESULT ARRAY after its region: `packedDense` of the three arrays the region finds. -/
theorem layer_arr (c : Dev nD) :
    (dat0 V c).arrAt 3 cfg0.N = packedDense (V c main_v13) (V c main_v18) (V c main_v20) :=
  (dat0 V c).arrAt_eq_of_cover 3 _ (fun t _ => flushed0_eq V c t) (cover0)

end

end Cert.KernelIdeal.Layer

end
-- ==== Proof.Region1.lean ====
/-
  The second kernel's result array: the mean on the two-rows-at-a-time layout.

  At every grid point the body forms the second dense layer of its block of aggregated rows (the 128-term product
  with the whole weight plus the bias row), adds it to the sum of the input's block and the first layer's block,
  and multiplies by the named constant one third. The block it writes back is therefore the block of `packedMean` of
  the five arrays the region finds, and the 25 blocks tile the 125000 rows.
-/
import proofs.«412504_j55190329753905_3_alg».proof.Proof.Region0
import Idealize.ShloMosaic.PureOps.IdealRules

set_option maxRecDepth 16384

noncomputable section

namespace Cert.KernelIdeal.Mean

open Cert.KernelIdeal Cert.KernelIdeal.Gen Idealize.ShloMosaic Idealize.ShloMosaic.TcCoe Idealize.SL.Sem
open Idealize.ShloMosaic.ValueIdx Cert.Gcn Cert.KernelIdeal.Layer
open Idealize.ShloMosaic.Pipeline (Dat)

/-- The named constant of the mean denotes one third at the extended reals, by the certificate's table. -/
theorem third_named : Named.named (F := Ideal) Cert.KernelIdeal.κ "inv_3" (φ := .f32) 0x3EAAAAAB#32 = third :=
  IdealRules.named_const.ideal_named_scalar _ _ _ _ rfl

/-- The second kernel's stored value at entry `(p, q)` of its block: the input's entry plus the first layer's, plus the
    second layer's entry (the aggregated row's 128-term product with the weight's column, plus the bias row's
    entry), times one third. -/
theorem pay1_at (a : Vec Ideal S5000x128 .f32) (w : Vec Ideal S128x128 .f32) (b : Vec Ideal S1x128 .f32)
    (x : Vec Ideal S5000x128 .f32) (h : Vec Ideal S5000x128 .f32) (p : Fin 5000) (q : Fin 128) :
    k1_pay1 (F := Ideal) a w b x h (ix2 p q)
      = ((x (ix2 p q) + h (ix2 p q)) + ((∑ k : Fin 128, a (ix2 p k) * w (ix2 k q)) + b (ix2 (0 : Fin 1) q))) * third := by
  unfold k1_pay1
  refine (mulf_apply _ _ _).trans ?_
  refine congrArg₂ (· * ·) ?_ ?_
  · refine (addf_apply _ _ _).trans ?_
    refine congrArg₂ (· + ·) ?_ ?_
    · refine (addf_apply _ _ _).trans ?_
      refine congrArg₂ (· + ·) ?_ ?_
      · exact congrFun (shapeCast_self x _) _
      · exact congrFun (shapeCast_self h _) _
    · refine (addf_apply _ _ _).trans ?_
      refine congrArg₂ (· + ·) ?_ ?_
      · refine (blockProduct_at _ _ p q).trans ?_
        refine Finset.sum_congr rfl fun k _ => ?_
        refine congrArg₂ (· * ·) ?_ ?_
        · exact congrFun (shapeCast_self a _) _
        · exact congrFun (shapeCast_self w _) _
      · refine (broadcastTo_1b_ab_apply _ _ p q).trans ?_
        exact congrFun (shapeCast_self b _) _
  · exact (broadcast_apply _ _).trans third_named

/-! ## One block -/

/-- Entry `j` of the block the body stores is entry `i` of `packedMean` of five arrays, as soon as the three blocks of
    rows the body loaded hold, on `j`'s row, row `i 0` of the first three arrays (the input and the first layer at `j`'s
    own entry), the weight and bias blocks are the whole fourth and fifth arrays, and `j` and `i` have the same
    column. -/
theorem block1_eq (bx bh ba : Vec Ideal S5000x128 .f32) (bw : Vec Ideal S128x128 .f32) (bbias : Vec Ideal S1x128 .f32)
    (X H A : FVec Ideal S125000x128 .f32) (Wb : FVec Ideal S128x128 .f32) (bb : FVec Ideal S1x128 .f32)
    (j : S5000x128.Idx) (i : S125000x128.Idx)
    (hx : bx j = X i) (hh : bh j = H i)
    (ha : ∀ k : Fin 128, ba (ix2 (j 0) k) = A (ix2 (i 0) k)) (hw : bw = Wb) (hb : bbias = bb)
    (hcol : (j 1).val = (i 1).val) :
    k1_pay1 (F := Ideal) ba bw bbias bx bh j = packedMean X H A Wb bb i := by
  obtain ⟨p, q, rfl⟩ : ∃ (p : Fin 5000) (q : Fin 128), j = ix2 p q := ⟨j 0, j 1, eq_ix2 j⟩
  have hq : (i 1) = q := Fin.ext hcol.symm
  rw [pay1_at, hw, hb, hx, hh]
  unfold packedMean packedDense packedDenseAt
  rw [hq]
  exact congrArg (fun s => ((X i + H i) + (s + bb (ix2 (0 : Fin 1) q))) * third) (Finset.sum_congr rfl fun k _ => by rw [ha k])

/-! ## The index maps, decided over the 25 grid points -/

/-- The three blocks of rows move with the output block; the weight and the bias stay at block `(0, 0)`; the
    output's block index is `(t, 0)` with `t ≤ 24`. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every block row of the output is some point's. -/
theorem idx_onto1 : ∀ q0 : Fin 25, ∃ t : Fin cfg1.N, win1_5.index t = ![q0.val, 0] :=
  (by decide +kernel : ∀ q0 : Fin 25, ∃ t : Fin grid1.N, win1_5.index t = ![q0.val, 0])

section
variable (V : (c : Dev nD) → (b : Ref sig .tc) → Buf (Elt Ideal) ((c : Thread nD τ).loc b))

/-- What point `t` writes back is block `t` of `packedMean` of the five arrays the region finds. -/
theorem flushed1_eq (c : Dev nD) (t : Fin cfg1.N) :
    (dat1 V c).flushed 5 t = ((cfg1.win 5).blk t).view.read (Elt Ideal)
      (packedMean (V c main_v36) (V c main_v37) (V c main_v38) (V c main_v43) (V c main_v45)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts1 t
  funext j
  refine block1_eq (iblk1 V c 0 t) (iblk1 V c 1 t) (iblk1 V c 2 t) (iblk1 V c 3 t) (iblk1 V c 4 t)
    (V c main_v36) (V c main_v37) (V c main_v38) (V c main_v43) (V c main_v45) j
    (((cfg1.win 5).blk t).view.emb j) ?_ ?_ (fun k => ?_) ?_ ?_ ?_
  · show V c main_v36 (((cfg1.win 0).blk t).view.emb j) = V c main_v36 (((cfg1.win 5).blk t).view.emb j)
    refine congrArg (V c main_v36) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * (j 1).val = win1_5.index t (1 : Fin 2) * 128 + 1 * (j 1).val; omega
  · show V c main_v37 (((cfg1.win 1).blk t).view.emb j) = V c main_v37 (((cfg1.win 5).blk t).view.emb j)
    refine congrArg (V c main_v37) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * (j 1).val = win1_5.index t (1 : Fin 2) * 128 + 1 * (j 1).val; omega
  · show V c main_v38 (((cfg1.win 2).blk t).view.emb (ix2 (j 0) k)) = V c main_v38 (ix2 ((((cfg1.win 5).blk t).view.emb j) 0) k)
    refine congrArg (V c main_v38) (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 128 + 1 * k.val = k.val; omega
  · funext y
    show V c main_v43 (((cfg1.win 3).blk t).view.emb y) = V c main_v43 y
    refine congrArg (V c main_v43) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v45 (((cfg1.win 4).blk t).view.emb y) = V c main_v45 y
    refine congrArg (V c main_v45) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show (j 1).val = win1_5.index t (1 : Fin 2) * 128 + 1 * (j 1).val
    omega

/-- An index of the output array is in point `t`'s block iff each coordinate is in the block's range on its axis. -/
theorem mem_blk1 (t : Fin cfg1.N) (i : S125000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

/-- The 25 blocks tile the output array: row `r` lies in the block of point `r / 5000`. -/
theorem cover1 (i : S125000x128.Idx) : ∃ t : Fin cfg1.N, (cfg1.win 5).flush t = true ∧ i ∈ ((cfg1.win 5).blk t).view.set := by
  have hi0 : (i 0).val < 125000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE SECOND KERNEL'S RESULT ARRAY after its region: `packedMean` of the five arrays the region finds. -/
theorem mean_arr (c : Dev nD) :
    (dat1 V c).arrAt 5 cfg1.N = packedMean (V c main_v36) (V c main_v37) (V c main_v38) (V c main_v43) (V c main_v45) :=
  (dat1 V c).arrAt_eq_of_cover 5 _ (fun t _ => flushed1_eq V c t) (cover1)

end

end Cert.KernelIdeal.Mean

end
-- ==== Proof.Packed.lean ====
/-
  The dense layer computed two rows at a time agrees with the dense layer.

  Reading the 250000 × 64 table two rows at a time puts row `2p + a` (`a = 0, 1`) in the half `64a … 64a + 63` of
  packed row `p`. The 128 × 128 weight is block diagonal with both diagonal blocks the transposed 64 × 64 weight and
  both off-diagonal blocks zero, and the bias row is the bias twice. In the 128-term contraction for the entry
  `(p, 64a + j)` the 64 terms of the other half are products with zero and vanish (in the extended reals
  `x · 0 = 0` for every `x`, infinite ones included), and the 64 terms of half `a` are
  `Σ_k A(2p + a, k) · W(j, k)`: the dense layer's entry `(2p + a, j)`.
-/
import proofs.«412504_j55190329753905_3_alg».proof.Proof.Dense
import Idealize.ShloMosaic.Lib.Pipeline.Value
import Idealize.ShloMosaic.Lib.ValueLayout
import Idealize.ShloMosaic.PureOps.Ideal.Laws
import Idealize.ShloMosaic.Lib.IdealHost
import Mathlib.Algebra.BigOperators.Fin

noncomputable section

namespace Cert.Gcn

open Idealize.ShloMosaic Idealize.ShloMosaic.ValueIdx

/-- The block-diagonal 128 × 128 weight `diag(Wᵀ, Wᵀ)`, as the host operations build it: the transpose joined with a
    zero block along the columns, the zero block joined with the transpose, and the two joined along the rows. -/
def blockDiag (hT : (⟨2, ![64, 64]⟩ : Shape).Transposes [1, 0] ⟨2, ![64, 64]⟩)
    (hZ : (⟨0, ![]⟩ : Shape).BroadcastsInDim ⟨2, ![64, 64]⟩ (![] : Fin 0 → Fin 2))
    (hc1 : Shape.Concatenates [(⟨2, ![64, 64]⟩ : Shape), ⟨2, ![64, 64]⟩] ⟨2, ![64, 128]⟩ 1)
    (hc0 : Shape.Concatenates [(⟨2, ![64, 128]⟩ : Shape), ⟨2, ![64, 128]⟩] ⟨2, ![128, 128]⟩ 0)
    (W : FVec Ideal ⟨2, ![64, 64]⟩ .f32) : FVec Ideal ⟨2, ![128, 128]⟩ .f32 :=
  concatenate ⟨2, ![128, 128]⟩ 0
    [⟨⟨2, ![64, 128]⟩, concatenate ⟨2, ![64, 128]⟩ 1
        [⟨⟨2, ![64, 64]⟩, transpose ⟨2, ![64, 64]⟩ [1, 0] W hT⟩,
         ⟨⟨2, ![64, 64]⟩, broadcastInDim ⟨2, ![64, 64]⟩ ![] hZ (constant (F := Ideal) ⟨0, ![]⟩ .f32 0x00000000#32)⟩] hc1⟩,
     ⟨⟨2, ![64, 128]⟩, concatenate ⟨2, ![64, 128]⟩ 1
        [⟨⟨2, ![64, 64]⟩, broadcastInDim ⟨2, ![64, 64]⟩ ![] hZ (constant (F := Ideal) ⟨0, ![]⟩ .f32 0x00000000#32)⟩,
         ⟨⟨2, ![64, 64]⟩, transpose ⟨2, ![64, 64]⟩ [1, 0] W hT⟩] hc1⟩] hc0

/-- The 1 × 128 bias row: the bias twice, as the host operations build it. -/
def biasPair (hc : Shape.Concatenates [(⟨1, ![64]⟩ : Shape), ⟨1, ![64]⟩] ⟨1, ![128]⟩ 0)
    (hs : (⟨1, ![128]⟩ : Shape).ShapeCasts ⟨2, ![1, 128]⟩)
    (b : FVec Ideal ⟨1, ![64]⟩ .f32) : FVec Ideal ⟨2, ![1, 128]⟩ .f32 :=
  shapeCast ⟨2, ![1, 128]⟩ (concatenate ⟨1, ![128]⟩ 0 [⟨⟨1, ![64]⟩, b⟩, ⟨⟨1, ![64]⟩, b⟩] hc) hs

/-! ## The layout operations read at an index -/

/-- The packing at a column of the low half: packed row `p`, column `j < 64`, is row `2p`, column `j`. -/
private theorem pack_lo (hp : Rows.ShapeCasts Pairs) (f : Rows.Idx → EReal) (p : Fin 125000) (j : Fin 64) :
    shapeCast Pairs f hp (ix2 p (⟨j.val, by omega⟩ : Fin 128)) = f (ix2 (⟨2 * p.val, by omega⟩ : Fin 250000) j) :=
  shapeCast_apply f hp _ _ (by
    rw [Shape.rowMajor_val_two, Shape.rowMajor_val_two]
    show (2 * p.val) * 64 + j.val = p.val * 128 + j.val
    omega)

/-- The packing at a column of the high half: packed row `p`, column `64 + j`, is row `2p + 1`, column `j`. -/
private theorem pack_hi (hp : Rows.ShapeCasts Pairs) (f : Rows.Idx → EReal) (p : Fin 125000) (j : Fin 64) :
    shapeCast Pairs f hp (ix2 p (⟨64 + j.val, by omega⟩ : Fin 128)) = f (ix2 (⟨2 * p.val + 1, by omega⟩ : Fin 250000) j) :=
  shapeCast_apply f hp _ _ (by
    rw [Shape.rowMajor_val_two, Shape.rowMajor_val_two]
    show (2 * p.val + 1) * 64 + j.val = p.val * 128 + (64 + j.val)
    omega)

/-- A 128-term sum is the sum over the low half plus the sum over the high half. -/
private theorem sum_halves (f : Fin 128 → EReal) :
    ∑ k : Fin 128, f k = (∑ k : Fin 64, f ⟨k.val, by omega⟩) + ∑ k : Fin 64, f ⟨64 + k.val, by omega⟩ :=
  Fin.sum_univ_add (a := 64) (b := 64) (f : Fin (64 + 64) → EReal)

/-- A column of the packed table lies in the low half or in the high half. -/
private theorem fin128_cases (q : Fin 128) :
    (∃ j : Fin 64, q = ⟨j.val, by omega⟩) ∨ (∃ j : Fin 64, q = ⟨64 + j.val, by omega⟩) := by
  by_cases h : q.val < 64
  · exact Or.inl ⟨⟨q.val, h⟩, rfl⟩
  · exact Or.inr ⟨⟨q.val - 64, by omega⟩, Fin.ext (by show q.val = 64 + (q.val - 64); omega)⟩

/-- The zero block reads `0` everywhere. -/
private theorem zeroBlock_apply (hZ : (⟨0, ![]⟩ : Shape).BroadcastsInDim ⟨2, ![64, 64]⟩ (![] : Fin 0 → Fin 2))
    (i : (⟨2, ![64, 64]⟩ : Shape).Idx) :
    broadcastInDim ⟨2, ![64, 64]⟩ ![] hZ (constant (F := Ideal) ⟨0, ![]⟩ .f32 0x00000000#32) i = (0 : EReal) := by
  rw [broadcastInDim_scalar_apply, constant_apply, Ideal.ofBits_zero_f32]

section blocks

variable (hT : (⟨2, ![64, 64]⟩ : Shape).Transposes [1, 0] ⟨2, ![64, 64]⟩)
  (hZ : (⟨0, ![]⟩ : Shape).BroadcastsInDim ⟨2, ![64, 64]⟩ (![] : Fin 0 → Fin 2))
  (hc1 : Shape.Concatenates [(⟨2, ![64, 64]⟩ : Shape), ⟨2, ![64, 64]⟩] ⟨2, ![64, 128]⟩ 1)
  (hc0 : Shape.Concatenates [(⟨2, ![64, 128]⟩ : Shape), ⟨2, ![64, 128]⟩] ⟨2, ![128, 128]⟩ 0)
  (W : FVec Ideal ⟨2, ![64, 64]⟩ .f32)

/-- Two 64 × 128 blocks joined along the rows, read in the upper block. -/
private theorem rows_upper (x₁ x₂ : (⟨2, ![64, 128]⟩ : Shape).Idx → EReal) (k : Fin 64) (q : Fin 128) :
    concatenate ⟨2, ![128, 128]⟩ 0 [⟨⟨2, ![64, 128]⟩, x₁⟩, ⟨⟨2, ![64, 128]⟩, x₂⟩] hc0
      (ix2 (⟨k.val, by omega⟩ : Fin 128) q) = x₁ (ix2 k q) :=
  concatenate_pair_apply_left (t := ⟨2, ![128, 128]⟩) (s₁ := ⟨2, ![64, 128]⟩) (s₂ := ⟨2, ![64, 128]⟩)
    (0 : Fin 2) x₁ x₂ hc0 _ rfl (ix2 k q) (fun c => match c with | ⟨0, _⟩ => rfl | ⟨1, _⟩ => rfl)

/-- Two 64 × 128 blocks joined along the rows, read in the lower block. -/
private theorem rows_lower (x₁ x₂ : (⟨2, ![64, 128]⟩ : Shape).Idx → EReal) (k : Fin 64) (q : Fin 128) :
    concatenate ⟨2, ![128, 128]⟩ 0 [⟨⟨2, ![64, 128]⟩, x₁⟩, ⟨⟨2, ![64, 128]⟩, x₂⟩] hc0
      (ix2 (⟨64 + k.val, by omega⟩ : Fin 128) q) = x₂ (ix2 k q) :=
  concatenate_pair_apply_right (t := ⟨2, ![128, 128]⟩) (s₁ := ⟨2, ![64, 128]⟩) (s₂ := ⟨2, ![64, 128]⟩)
    (0 : Fin 2) x₁ x₂ hc0 _ rfl rfl (ix2 k q)
    (fun c hc => match c, hc with | ⟨0, _⟩, hc => absurd rfl hc | ⟨1, _⟩, _ => rfl)
    (by show k.val + 64 = 64 + k.val; omega)

/-- Two 64 × 64 blocks joined along the columns, read in the left block. -/
private theorem cols_left (x₁ x₂ : (⟨2, ![64, 64]⟩ : Shape).Idx → EReal) (k j : Fin 64) :
    concatenate ⟨2, ![64, 128]⟩ 1 [⟨⟨2, ![64, 64]⟩, x₁⟩, ⟨⟨2, ![64, 64]⟩, x₂⟩] hc1
      (ix2 k (⟨j.val, by omega⟩ : Fin 128)) = x₁ (ix2 k j) :=
  concatenate_pair_apply_left (t := ⟨2, ![64, 128]⟩) (s₁ := ⟨2, ![64, 64]⟩) (s₂ := ⟨2, ![64, 64]⟩)
    (1 : Fin 2) x₁ x₂ hc1 _ rfl (ix2 k j) (fun c => match c with | ⟨0, _⟩ => rfl | ⟨1, _⟩ => rfl)

/-- Two 64 × 64 blocks joined along the columns, read in the right block. -/
private theorem cols_right (x₁ x₂ : (⟨2, ![64, 64]⟩ : Shape).Idx → EReal) (k j : Fin 64) :
    concatenate ⟨2, ![64, 128]⟩ 1 [⟨⟨2, ![64, 64]⟩, x₁⟩, ⟨⟨2, ![64, 64]⟩, x₂⟩] hc1
      (ix2 k (⟨64 + j.val, by omega⟩ : Fin 128)) = x₂ (ix2 k j) :=
  concatenate_pair_apply_right (t := ⟨2, ![64, 128]⟩) (s₁ := ⟨2, ![64, 64]⟩) (s₂ := ⟨2, ![64, 64]⟩)
    (1 : Fin 2) x₁ x₂ hc1 _ rfl rfl (ix2 k j)
    (fun c hc => match c, hc with | ⟨0, _⟩, _ => rfl | ⟨1, _⟩, hc => absurd rfl hc)
    (by show j.val + 64 = 64 + j.val; omega)

/-- Upper left block: the transposed weight. -/
private theorem blockDiag_ul (k j : Fin 64) :
    blockDiag hT hZ hc1 hc0 W (ix2 (⟨k.val, by omega⟩ : Fin 128) (⟨j.val, by omega⟩ : Fin 128)) = W (ix2 j k) := by
  unfold blockDiag
  rw [rows_upper, cols_left]
  exact transpose_ix2_apply W hT k j

/-- Upper right block: zero. -/
private theorem blockDiag_ur (k j : Fin 64) :
    blockDiag hT hZ hc1 hc0 W (ix2 (⟨k.val, by omega⟩ : Fin 128) (⟨64 + j.val, by omega⟩ : Fin 128)) = 0 := by
  unfold blockDiag
  rw [rows_upper, cols_right]
  exact zeroBlock_apply hZ _

/-- Lower left block: zero. -/
private theorem blockDiag_ll (k j : Fin 64) :
    blockDiag hT hZ hc1 hc0 W (ix2 (⟨64 + k.val, by omega⟩ : Fin 128) (⟨j.val, by omega⟩ : Fin 128)) = 0 := by
  unfold blockDiag
  rw [rows_lower, cols_left]
  exact zeroBlock_apply hZ _

/-- Lower right block: the transposed weight. -/
private theorem blockDiag_lr (k j : Fin 64) :
    blockDiag hT hZ hc1 hc0 W (ix2 (⟨64 + k.val, by omega⟩ : Fin 128) (⟨64 + j.val, by omega⟩ : Fin 128)) = W (ix2 j k) := by
  unfold blockDiag
  rw [rows_lower, cols_right]
  exact transpose_ix2_apply W hT k j

end blocks

section bias

variable (hc : Shape.Concatenates [(⟨1, ![64]⟩ : Shape), ⟨1, ![64]⟩] ⟨1, ![128]⟩ 0)
  (hs : (⟨1, ![128]⟩ : Shape).ShapeCasts ⟨2, ![1, 128]⟩)
  (b : FVec Ideal ⟨1, ![64]⟩ .f32)

/-- The doubled bias at a column of the low half is the bias there. -/
private theorem biasPair_lo (j : Fin 64) :
    biasPair hc hs b (ix2 (0 : Fin 1) (⟨j.val, by omega⟩ : Fin 128)) = b (ix1 j) := by
  unfold biasPair
  rw [shapeCast_a_1a_apply]
  exact concatenate_pair_apply_left (t := ⟨1, ![128]⟩) (s₁ := ⟨1, ![64]⟩) (s₂ := ⟨1, ![64]⟩)
    (0 : Fin 1) b b hc _ rfl (ix1 j) (fun c => match c with | ⟨0, _⟩ => rfl)

/-- The doubled bias at a column of the high half is the bias at the column less 64. -/
private theorem biasPair_hi (j : Fin 64) :
    biasPair hc hs b (ix2 (0 : Fin 1) (⟨64 + j.val, by omega⟩ : Fin 128)) = b (ix1 j) := by
  unfold biasPair
  rw [shapeCast_a_1a_apply]
  exact concatenate_pair_apply_right (t := ⟨1, ![128]⟩) (s₁ := ⟨1, ![64]⟩) (s₂ := ⟨1, ![64]⟩)
    (0 : Fin 1) b b hc _ rfl rfl (ix1 j)
    (fun c hc => match c, hc with | ⟨0, _⟩, hc => absurd rfl hc)
    (by show j.val + 64 = 64 + j.val; omega)

end bias

/-! ## The two layouts agree -/

/-- The dense layer on the two-rows-at-a-time layout, against the block-diagonal weight and the doubled bias, is the
    dense layer's result read two rows at a time. -/
theorem packedDense_pack (hp : Rows.ShapeCasts Pairs)
    (hT : (⟨2, ![64, 64]⟩ : Shape).Transposes [1, 0] ⟨2, ![64, 64]⟩)
    (hZ : (⟨0, ![]⟩ : Shape).BroadcastsInDim ⟨2, ![64, 64]⟩ (![] : Fin 0 → Fin 2))
    (hc1 : Shape.Concatenates [(⟨2, ![64, 64]⟩ : Shape), ⟨2, ![64, 64]⟩] ⟨2, ![64, 128]⟩ 1)
    (hc0 : Shape.Concatenates [(⟨2, ![64, 128]⟩ : Shape), ⟨2, ![64, 128]⟩] ⟨2, ![128, 128]⟩ 0)
    (hc : Shape.Concatenates [(⟨1, ![64]⟩ : Shape), ⟨1, ![64]⟩] ⟨1, ![128]⟩ 0)
    (hs : (⟨1, ![128]⟩ : Shape).ShapeCasts ⟨2, ![1, 128]⟩)
    (W : FVec Ideal ⟨2, ![64, 64]⟩ .f32) (b : FVec Ideal ⟨1, ![64]⟩ .f32) (A : FVec Ideal Rows .f32) :
    packedDense (shapeCast Pairs A hp) (blockDiag hT hZ hc1 hc0 W) (biasPair hc hs b)
      = shapeCast Pairs (dense W b A) hp := by
  funext i
  obtain ⟨p, q, rfl⟩ : ∃ (p : Fin 125000) (q : Fin 128), i = ix2 p q := ⟨i 0, i 1, eq_ix2 i⟩
  show packedDenseAt (shapeCast Pairs A hp) (blockDiag hT hZ hc1 hc0 W) (biasPair hc hs b) p q = _
  unfold packedDenseAt
  rw [sum_halves]
  rcases fin128_cases q with ⟨j, rfl⟩ | ⟨j, rfl⟩
  · -- a column of the low half: the high half of the contraction meets the lower left zero block
    simp only [pack_lo, pack_hi, blockDiag_ul, blockDiag_ll, biasPair_lo, mul_zero, Finset.sum_const_zero, add_zero]
    rfl
  · -- a column of the high half: the low half of the contraction meets the upper right zero block
    simp only [pack_lo, pack_hi, blockDiag_ur, blockDiag_lr, biasPair_hi, mul_zero, Finset.sum_const_zero, zero_add]
    rfl

/-- The mean computed two rows at a time (the second layer computed in place) is the mean read two rows at a time. -/
theorem packedMean_pack (hp : Rows.ShapeCasts Pairs)
    (hT : (⟨2, ![64, 64]⟩ : Shape).Transposes [1, 0] ⟨2, ![64, 64]⟩)
    (hZ : (⟨0, ![]⟩ : Shape).BroadcastsInDim ⟨2, ![64, 64]⟩ (![] : Fin 0 → Fin 2))
    (hc1 : Shape.Concatenates [(⟨2, ![64, 64]⟩ : Shape), ⟨2, ![64, 64]⟩] ⟨2, ![64, 128]⟩ 1)
    (hc0 : Shape.Concatenates [(⟨2, ![64, 128]⟩ : Shape), ⟨2, ![64, 128]⟩] ⟨2, ![128, 128]⟩ 0)
    (hc : Shape.Concatenates [(⟨1, ![64]⟩ : Shape), ⟨1, ![64]⟩] ⟨1, ![128]⟩ 0)
    (hs : (⟨1, ![128]⟩ : Shape).ShapeCasts ⟨2, ![1, 128]⟩)
    (W : FVec Ideal ⟨2, ![64, 64]⟩ .f32) (b : FVec Ideal ⟨1, ![64]⟩ .f32) (x h a : FVec Ideal Rows .f32) :
    packedMean (shapeCast Pairs x hp) (shapeCast Pairs h hp) (shapeCast Pairs a hp) (blockDiag hT hZ hc1 hc0 W) (biasPair hc hs b)
      = shapeCast Pairs (fun i => ((x i + h i) + dense W b a i) * third) hp := by
  funext i
  obtain ⟨p, q, rfl⟩ : ∃ (p : Fin 125000) (q : Fin 128), i = ix2 p q := ⟨i 0, i 1, eq_ix2 i⟩
  unfold packedMean
  rw [packedDense_pack hp hT hZ hc1 hc0 hc hs W b a]
  -- all four tables are read at one common entry of the unpacked layout
  rcases fin128_cases q with ⟨j, rfl⟩ | ⟨j, rfl⟩
  · simp only [pack_lo]
  · simp only [pack_hi]

end Cert.Gcn

end
-- ==== Proof.Spec.lean ====
/-
  What the two-layer graph convolution computes, as one function of the argument arrays.

  `agg` is the sparse aggregation (row `r` of the result sums `vals e · h (cols e)` over the edges `e` whose row is
  `r`): both programs apply the very same host operations for it, so it is carried as that composition and never
  opened. Each layer is the aggregation followed by a dense layer; the result is the mean of the input and the two
  layers' outputs, entry by entry: `((x + h₁) + h₂) · ⅓`.
-/
import proofs.«412504_j55190329753905_3_alg».proof.Proof.Dense
import proofs.«412504_j55190329753905_3_alg».proof.Proof.Gen.ReferenceIdeal.Read

noncomputable section

namespace Cert.Gcn

open Idealize.ShloMosaic Cert.ReferenceIdeal Cert.ReferenceIdeal.Gen

/-- The sparse aggregation of a feature table `h` along the edges `(rows, cols, vals)`: the host operations'
    own composition (a gather of rows, a scaling, a scatter-add into a zero table). -/
def agg (rows cols : IVec S4000000 32) (vals : FVec Ideal S4000000 .f32) (h : FVec Ideal S250000x64 .f32) :
    FVec Ideal S250000x64 .f32 :=
  Cert.ReferenceIdeal.Read.val_main_v12 (F := Ideal) h rows cols vals

/-- The first layer's output. -/
def layer1 (x : FVec Ideal S250000x64 .f32) (rows cols : IVec S4000000 32) (vals : FVec Ideal S4000000 .f32)
    (W0 : FVec Ideal S64x64 .f32) (b0 : FVec Ideal S64 .f32) : FVec Ideal S250000x64 .f32 :=
  dense W0 b0 (agg rows cols vals x)

/-- The second layer's output. -/
def layer2 (x : FVec Ideal S250000x64 .f32) (rows cols : IVec S4000000 32) (vals : FVec Ideal S4000000 .f32)
    (W0 : FVec Ideal S64x64 .f32) (b0 : FVec Ideal S64 .f32) (W1 : FVec Ideal S64x64 .f32) (b1 : FVec Ideal S64 .f32) :
    FVec Ideal S250000x64 .f32 :=
  dense W1 b1 (agg rows cols vals (layer1 x rows cols vals W0 b0))

/-- The convolution's result: the mean of the input and the two layers' outputs. -/
def out (x : FVec Ideal S250000x64 .f32) (rows cols : IVec S4000000 32) (vals : FVec Ideal S4000000 .f32)
    (W0 : FVec Ideal S64x64 .f32) (b0 : FVec Ideal S64 .f32) (W1 : FVec Ideal S64x64 .f32) (b1 : FVec Ideal S64 .f32) :
    FVec Ideal S250000x64 .f32 :=
  fun i => ((x i + layer1 x rows cols vals W0 b0 i) + layer2 x rows cols vals W0 b0 W1 b1 i) * third

end Cert.Gcn

end
-- ==== Proof.Chain.lean ====
/-
  The kernel program's result array, read back through its host operations and its two kernels.

  The program aggregates the input along the edges, reads the table two rows at a time, runs the first kernel
  (the dense layer on that layout, against the block-diagonal weight and the doubled bias), reads its result back as
  250000 rows: the first layer's output. It aggregates that, reads the input, the first layer and the aggregate two
  rows at a time, runs the second kernel (the mean on that layout, the second dense layer computed in place), and
  reads its result back as 250000 rows: the convolution's result `out` of the launch contents of the eight arguments.
-/
import proofs.«412504_j55190329753905_3_alg».proof.Proof.Region1
import proofs.«412504_j55190329753905_3_alg».proof.Proof.Packed
import proofs.«412504_j55190329753905_3_alg».proof.Proof.Spec
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Cert.Gcn
open Idealize.ShloMosaic.Pipeline (Dat)

/-! ## The aggregation, as this program spells it -/

/-- The sparse aggregation as the kernel program's host operations compose it. -/
def aggK (rows cols : IVec S4000000 32) (vals : FVec Ideal S4000000 .f32) (h : FVec Ideal S250000x64 .f32) :
    FVec Ideal S250000x64 .f32 :=
  Host.scatterAdd scatter_S250000x64_S4000000x1_S4000000x64_1_0_0_1
    (broadcastInDim S250000x64 ![] bcast_S_S250000x64 (constant (F := Ideal) S_ .f32 0x00000000#32))
    (broadcastInDim S4000000x1 ![0] bcast_S4000000_S4000000x1_0 rows)
    (mulf (broadcastInDim S4000000x64 ![0, 1] bcast_S4000000x1_S4000000x64_0_1 (broadcastInDim S4000000x1 ![0] bcast_S4000000_S4000000x1_0 vals))
      (Host.gather gather_S250000x64_S4000000x1_S4000000x64_1_0_n_n_0_1_164 h
        (broadcastInDim S4000000x1 ![0] bcast_S4000000_S4000000x1_0
          (select (cmpi .slt cols (broadcastInDim S4000000 ![] bcast_S_S4000000 (constantI S_ 32 0#32)))
            (addi cols (broadcastInDim S4000000 ![] bcast_S_S4000000 (constantI S_ 32 250000#32))) cols))))

/-- The two programs' records of the gather and of the scatter are the same records. -/
theorem gatherDims_eq : gather_S250000x64_S4000000x1_S4000000x64_1_0_n_n_0_1_164
    = Cert.ReferenceIdeal.gather_S250000x64_S4000000x1_S4000000x64_1_0_n_n_0_1_164 := rfl
theorem scatterDims_eq : scatter_S250000x64_S4000000x1_S4000000x64_1_0_0_1
    = Cert.ReferenceIdeal.scatter_S250000x64_S4000000x1_S4000000x64_1_0_0_1 := rfl

/-- It is the aggregation `agg`: the same operations on the same operands. -/
theorem aggK_eq (rows cols : IVec S4000000 32) (vals : FVec Ideal S4000000 .f32) (h : FVec Ideal S250000x64 .f32) :
    aggK rows cols vals h = agg rows cols vals h := by
  unfold aggK agg Cert.ReferenceIdeal.Read.val_main_v12 Cert.ReferenceIdeal.Read.val_main_v10 Cert.ReferenceIdeal.Read.val_main_v11
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst
  rw [gatherDims_eq, scatterDims_eq]

variable (m : (ℓ : Loc nD τ sig) → Buf (Elt Ideal) ℓ) (ρ : Dev nD → PrngReg)

/-! ## What the first kernel finds -/

/-- The first kernel's block-of-rows array: the aggregated input, two rows at a time. -/
theorem rows0 (c : Dev nD) : V1 m ρ c main_v13
    = shapeCast S125000x128 (aggK (m ((c : Thread nD τ).loc main_arg1)) (m ((c : Thread nD τ).loc main_arg2)) (m ((c : Thread nD τ).loc main_arg3)) (m ((c : Thread nD τ).loc main_arg0))) shapeCasts_S250000x64_S125000x128 := by
  show StableHlo.after hostOps0 (W0 m ρ c) (Proc.devRef .tc main_v13) = _
  after_results_simp
  rfl

/-- Its weight array: the block-diagonal weight of the first layer. -/
theorem weight0 (c : Dev nD) : V1 m ρ c main_v18
    = blockDiag transposes_S64x64_S64x64_1_0 bcast_S_S64x64 concatenates_S64x64_S64x64_S64x128_d1 concatenates_S64x128_S64x128_S128x128_d0 (m ((c : Thread nD τ).loc main_arg4)) := by
  show StableHlo.after hostOps0 (W0 m ρ c) (Proc.devRef .tc main_v18) = _
  after_results_simp
  rfl

/-- Its bias array: the first layer's bias twice. -/
theorem bias0 (c : Dev nD) : V1 m ρ c main_v20
    = biasPair concatenates_S64_S64_S128_d0 shapeCasts_S128_S1x128 (m ((c : Thread nD τ).loc main_arg5)) := by
  show StableHlo.after hostOps0 (W0 m ρ c) (Proc.devRef .tc main_v20) = _
  after_results_simp
  rfl

/-- The first kernel's result array after its region: the first layer's output, two rows at a time. -/
theorem layer1_packed (c : Dev nD) : W2 m ρ c (Proc.devRef .tc main_v21)
    = shapeCast S125000x128 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) shapeCasts_S250000x64_S125000x128 := by
  refine (W2_arr m ρ c 3).trans ?_
  rw [Cert.KernelIdeal.Layer.layer_arr (V1 m ρ) c, rows0, weight0, bias0, aggK_eq]
  exact packedDense_pack _ _ _ _ _ _ _ _ _ _

/-! ## The arguments at the second kernel's entry -/

theorem W2_arg0 (c : Dev nD) : W2 m ρ c (Proc.devRef .tc main_arg0) = m ((c : Thread nD τ).loc main_arg0) :=
  (W2_of_ne m ρ c main_arg0 (by decide)).trans (by show StableHlo.after hostOps0 (W0 m ρ c) (Proc.devRef .tc main_arg0) = _; after_results_simp)
theorem W2_arg1 (c : Dev nD) : W2 m ρ c (Proc.devRef .tc main_arg1) = m ((c : Thread nD τ).loc main_arg1) :=
  (W2_of_ne m ρ c main_arg1 (by decide)).trans (by show StableHlo.after hostOps0 (W0 m ρ c) (Proc.devRef .tc main_arg1) = _; after_results_simp)
theorem W2_arg2 (c : Dev nD) : W2 m ρ c (Proc.devRef .tc main_arg2) = m ((c : Thread nD τ).loc main_arg2) :=
  (W2_of_ne m ρ c main_arg2 (by decide)).trans (by show StableHlo.after hostOps0 (W0 m ρ c) (Proc.devRef .tc main_arg2) = _; after_results_simp)
theorem W2_arg3 (c : Dev nD) : W2 m ρ c (Proc.devRef .tc main_arg3) = m ((c : Thread nD τ).loc main_arg3) :=
  (W2_of_ne m ρ c main_arg3 (by decide)).trans (by show StableHlo.after hostOps0 (W0 m ρ c) (Proc.devRef .tc main_arg3) = _; after_results_simp)
theorem W2_arg6 (c : Dev nD) : W2 m ρ c (Proc.devRef .tc main_arg6) = m ((c : Thread nD τ).loc main_arg6) :=
  (W2_of_ne m ρ c main_arg6 (by decide)).trans (by show StableHlo.after hostOps0 (W0 m ρ c) (Proc.devRef .tc main_arg6) = _; after_results_simp)
theorem W2_arg7 (c : Dev nD) : W2 m ρ c (Proc.devRef .tc main_arg7) = m ((c : Thread nD τ).loc main_arg7) :=
  (W2_of_ne m ρ c main_arg7 (by decide)).trans (by show StableHlo.after hostOps0 (W0 m ρ c) (Proc.devRef .tc main_arg7) = _; after_results_simp)

/-! ## What the second kernel finds -/

/-- The first layer's output, read back as 250000 rows. -/
theorem unpack_pack (f : FVec Ideal S250000x64 .f32) :
    shapeCast S250000x64 (shapeCast S125000x128 f shapeCasts_S250000x64_S125000x128) shapeCasts_S125000x128_S250000x64 = f :=
  shapeCast_shapeCast f _ _

/-- The input, two rows at a time. -/
theorem x1 (c : Dev nD) : V3 m ρ c main_v36
    = shapeCast S125000x128 (m ((c : Thread nD τ).loc main_arg0)) shapeCasts_S250000x64_S125000x128 := by
  show StableHlo.after hostOps1 (W2 m ρ c) (Proc.devRef .tc main_v36) = _
  after_results_simp
  rw [W2_arg0]
  rfl

/-- The first layer's output, two rows at a time. -/
theorem h1 (c : Dev nD) : V3 m ρ c main_v37
    = shapeCast S125000x128 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) shapeCasts_S250000x64_S125000x128 := by
  show StableHlo.after hostOps1 (W2 m ρ c) (Proc.devRef .tc main_v37) = _
  after_results_simp
  rw [layer1_packed]
  exact congrArg (fun f => shapeCast S125000x128 f shapeCasts_S250000x64_S125000x128) (unpack_pack _)

/-- The aggregated first layer, two rows at a time. -/
theorem a1 (c : Dev nD) : V3 m ρ c main_v38
    = shapeCast S125000x128 (agg (m ((c : Thread nD τ).loc main_arg1)) (m ((c : Thread nD τ).loc main_arg2)) (m ((c : Thread nD τ).loc main_arg3)) (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) shapeCasts_S250000x64_S125000x128 := by
  show StableHlo.after hostOps1 (W2 m ρ c) (Proc.devRef .tc main_v38) = _
  after_results_simp
  rw [layer1_packed, W2_arg1, W2_arg2, W2_arg3, ← aggK_eq]
  exact congrArg (fun f => shapeCast S125000x128 (aggK (m ((c : Thread nD τ).loc main_arg1)) (m ((c : Thread nD τ).loc main_arg2)) (m ((c : Thread nD τ).loc main_arg3)) f) shapeCasts_S250000x64_S125000x128) (unpack_pack _)

set_option maxHeartbeats 1600000 in
/-- The second layer's block-diagonal weight. -/
theorem weight1 (c : Dev nD) : V3 m ρ c main_v43
    = blockDiag transposes_S64x64_S64x64_1_0 bcast_S_S64x64 concatenates_S64x64_S64x64_S64x128_d1 concatenates_S64x128_S64x128_S128x128_d0 (m ((c : Thread nD τ).loc main_arg6)) := by
  have e : V3 m ρ c main_v43 = blockDiag transposes_S64x64_S64x64_1_0 bcast_S_S64x64 concatenates_S64x64_S64x64_S64x128_d1
      concatenates_S64x128_S64x128_S128x128_d0 (W2 m ρ c (Proc.devRef .tc main_arg6)) := by
    show StableHlo.after hostOps1 (W2 m ρ c) (Proc.devRef .tc main_v43) = _
    after_results
    rfl
  rw [e, W2_arg6]

/-- The second layer's bias twice. -/
theorem bias1 (c : Dev nD) : V3 m ρ c main_v45
    = biasPair concatenates_S64_S64_S128_d0 shapeCasts_S128_S1x128 (m ((c : Thread nD τ).loc main_arg7)) := by
  have e : V3 m ρ c main_v45 = biasPair concatenates_S64_S64_S128_d0 shapeCasts_S128_S1x128 (W2 m ρ c (Proc.devRef .tc main_arg7)) := by
    show StableHlo.after hostOps1 (W2 m ρ c) (Proc.devRef .tc main_v45) = _
    after_results_simp
    rfl
  rw [e, W2_arg7]

/-! ## The result -/

/-- The second kernel's result array after its region: the convolution's result, two rows at a time. -/
theorem out_packed (c : Dev nD) : W4 m ρ c (Proc.devRef .tc main_v46)
    = shapeCast S125000x128 (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S250000x64_S125000x128 := by
  refine (W4_arr m ρ c 5).trans ?_
  rw [Cert.KernelIdeal.Mean.mean_arr (V3 m ρ) c, x1, h1, a1, weight1, bias1]
  exact packedMean_pack _ _ _ _ _ _ _ _ _ _ _ _

/-- THE RESULT ARRAY at the program's end: `out` of the eight arguments' launch contents. -/
theorem result (c : Dev nD) : W5 m ρ c (Proc.devRef .tc main_v47)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v47) = _
  after_results_simp
  rw [out_packed]
  exact unpack_pack _

end Cert.KernelIdeal.Chain

end
-- ==== Proof.RefValue.lean ====
/-
  The reference's result is the graph convolution's function of the argument arrays.

  The reference's dense layers are a 64-term contraction against the transposed weight plus the broadcast bias:
  entry by entry `dense`. Its second aggregation is the first one's composition applied to the first layer's
  output. Its mean stacks the three tables, sums the stack from zero and divides by three: `0 + (x + h₁ + h₂)`
  divided by `3`, which on the extended reals is `((x + h₁) + h₂) · ⅓` (a quotient by a non-zero real is the product
  with its inverse).
-/
import proofs.«412504_j55190329753905_3_alg».proof.Proof.Spec
import proofs.«412504_j55190329753905_3_alg».proof.Proof.Gen.ReferenceIdeal.Run
import proofs.«412504_j55190329753905_3_alg».proof.Proof.Gen.ReferenceIdeal.Read
import Idealize.ShloMosaic.Lib.Pipeline.Value
import Idealize.ShloMosaic.Lib.ValueLayout
import Idealize.ShloMosaic.PureOps.Ideal.Laws

noncomputable section

namespace Cert.Gcn

open Idealize.ShloMosaic Idealize.ShloMosaic.ValueIdx Cert.ReferenceIdeal Cert.ReferenceIdeal.Gen Cert.ReferenceIdeal.Read

/-! ## The dense layer's three reads -/

/-- The contraction's left read at entry `(r, j)`, term `k`, is the table's entry `(r, k)`. -/
private theorem lidx_ix2 (r : Fin 250000) (j k : Fin 64) : lidx_main_v14 (ix2 r j) k = ix2 r k :=
  funext fun a => Fin.ext (by match a with | ⟨0, _⟩ => rfl | ⟨1, _⟩ => rfl)

/-- The contraction's right read, through the transpose, is the weight's entry `(j, k)`. -/
private theorem widx_ix2 (r : Fin 250000) (j k : Fin 64) : idx_main_v13 (ridx_main_v14 (ix2 r j) k) = ix2 j k :=
  funext fun a => Fin.ext (by match a with | ⟨0, _⟩ => rfl | ⟨1, _⟩ => rfl)

/-- The bias, broadcast to a row and then to the table, is read at the column. -/
private theorem bidx_ix2 (r : Fin 250000) (j : Fin 64) : idx_main_v15 (idx_main_v16 (ix2 r j)) = ix1 j :=
  funext fun a => Fin.ext (by match a with | ⟨0, _⟩ => rfl)

/-- A 64-term contraction against the transposed weight plus the broadcast bias is one entry of the dense layer. -/
private theorem dense_read (W : S64x64.Idx → EReal) (b : S64.Idx → EReal) (a : S250000x64.Idx → EReal)
    (r : Fin 250000) (j : Fin 64) :
    (∑ k : Fin 64, a (lidx_main_v14 (ix2 r j) k) * W (idx_main_v13 (ridx_main_v14 (ix2 r j) k)))
        + b (idx_main_v15 (idx_main_v16 (ix2 r j))) = denseAt W b a r j := by
  unfold denseAt
  rw [bidx_ix2]
  refine congrArg (· + b (ix1 j)) (Finset.sum_congr rfl fun k _ => ?_)
  rw [lidx_ix2, widx_ix2]

/-- The first layer: the reference's first dense stage is `layer1`. -/
private theorem v17_eq_layer1 (x0 : FVec Ideal S250000x64 .f32) (x1 x2 : IVec S4000000 32) (x3 : FVec Ideal S4000000 .f32)
    (x4 : FVec Ideal S64x64 .f32) (x5 : FVec Ideal S64 .f32) :
    val_main_v17 (F := Ideal) x0 x1 x2 x3 x4 x5 = layer1 x0 x1 x2 x3 x4 x5 := by
  funext i
  obtain ⟨r, j, rfl⟩ : ∃ (r : Fin 250000) (j : Fin 64), i = ix2 r j := ⟨i 0, i 1, eq_ix2 i⟩
  rw [val_main_v17_apply, val_main_v14_apply, val_main_v16_apply, val_main_v15_apply]
  simp only [val_main_v13_apply]
  exact dense_read x4 x5 (val_main_v12 (F := Ideal) x0 x1 x2 x3) r j

/-! ## The second aggregation and the second layer -/

/-- The second aggregation applies the first one's host operations (the same gather of rows, scaling and scatter-add
    into a zero table) to the first layer's output. -/
private theorem v30_eq_agg (x0 : FVec Ideal S250000x64 .f32) (x1 x2 : IVec S4000000 32) (x3 : FVec Ideal S4000000 .f32)
    (x4 : FVec Ideal S64x64 .f32) (x5 : FVec Ideal S64 .f32) :
    val_main_v30 (F := Ideal) x0 x1 x2 x3 x4 x5 = agg x1 x2 x3 (val_main_v17 (F := Ideal) x0 x1 x2 x3 x4 x5) := by
  unfold val_main_v30 val_main_v27 val_main_v25
  generalize val_main_v17 (F := Ideal) x0 x1 x2 x3 x4 x5 = h
  rfl

/-- The second layer: the reference's second dense stage is `layer2`. -/
private theorem v35_eq_layer2 (x0 : FVec Ideal S250000x64 .f32) (x1 x2 : IVec S4000000 32) (x3 : FVec Ideal S4000000 .f32)
    (x4 : FVec Ideal S64x64 .f32) (x5 : FVec Ideal S64 .f32) (x6 : FVec Ideal S64x64 .f32) (x7 : FVec Ideal S64 .f32) :
    val_main_v35 (F := Ideal) x0 x1 x2 x3 x4 x5 x6 x7 = layer2 x0 x1 x2 x3 x4 x5 x6 x7 := by
  funext i
  obtain ⟨r, j, rfl⟩ : ∃ (r : Fin 250000) (j : Fin 64), i = ix2 r j := ⟨i 0, i 1, eq_ix2 i⟩
  rw [val_main_v35_apply, val_main_v32_apply, val_main_v34_apply, val_main_v33_apply, v30_eq_agg, v17_eq_layer1]
  simp only [val_main_v31_apply]
  exact dense_read x6 x7 (agg x1 x2 x3 (layer1 x0 x1 x2 x3 x4 x5)) r j

/-! ## The stack of the three tables, read at each of its three layers -/

/-- Entry `(r, j)` of a table, on the shape with a leading unit axis. -/
private abbrev lift (i : S250000x64.Idx) : S1x250000x64.Idx := ix3 (0 : Fin 1) (i 0) (i 1)

/-- The unit-axis broadcast of a table reads, at the lifted index, the table's own entry. -/
private theorem unit_idx (i : S250000x64.Idx) : idx_main_v36 (lift i) = i :=
  funext fun a => Fin.ext (by match a with | ⟨0, _⟩ => rfl | ⟨1, _⟩ => rfl)

/-- Three `1 × 250000 × 64` tables joined along the leading axis, read at layer `k` (`k = 0, 1, 2`) and entry `i`:
    the `k`-th table at `i`. Each piece has extent one on the joined axis, so the pieces before the `k`-th
    span `k` positions and the position inside the piece is `0`. -/
private theorem stack_read (A B C : S1x250000x64.Idx → EReal)
    (h : Shape.Concatenates [S1x250000x64, S1x250000x64, S1x250000x64] S3x250000x64 0) (i : S250000x64.Idx) :
    concatenate S3x250000x64 0 [⟨S1x250000x64, A⟩, ⟨S1x250000x64, B⟩, ⟨S1x250000x64, C⟩] h (idx_main_v40 i 0) = A (lift i)
    ∧ concatenate S3x250000x64 0 [⟨S1x250000x64, A⟩, ⟨S1x250000x64, B⟩, ⟨S1x250000x64, C⟩] h (idx_main_v40 i 1) = B (lift i)
    ∧ concatenate S3x250000x64 0 [⟨S1x250000x64, A⟩, ⟨S1x250000x64, B⟩, ⟨S1x250000x64, C⟩] h (idx_main_v40 i 2) = C (lift i) := by
  have off : ∀ (k : Fin 3) (b : Fin S1x250000x64.rank), b.cast rfl ≠ (0 : Fin S3x250000x64.rank) →
      (lift i b).val = (idx_main_v40 i k (b.cast rfl)).val := fun k b hb => by
    match b with
    | ⟨0, _⟩ => exact absurd rfl hb
    | ⟨1, _⟩ => rfl
    | ⟨2, _⟩ => rfl
  refine ⟨?_, ?_, ?_⟩
  · exact concatenate_apply_piece (0 : Fin S3x250000x64.rank) [⟨S1x250000x64, A⟩, ⟨S1x250000x64, B⟩, ⟨S1x250000x64, C⟩] h (idx_main_v40 i 0) 0 (Nat.zero_lt_succ 2)
      S1x250000x64 A rfl rfl 0 rfl (lift i) (off 0) rfl
  · exact concatenate_apply_piece (0 : Fin S3x250000x64.rank) [⟨S1x250000x64, A⟩, ⟨S1x250000x64, B⟩, ⟨S1x250000x64, C⟩] h (idx_main_v40 i 1) 1 (Nat.succ_lt_succ (Nat.zero_lt_succ 1))
      S1x250000x64 B rfl rfl 1 rfl (lift i) (off 1) rfl
  · exact concatenate_apply_piece (0 : Fin S3x250000x64.rank) [⟨S1x250000x64, A⟩, ⟨S1x250000x64, B⟩, ⟨S1x250000x64, C⟩] h (idx_main_v40 i 2) 2 (Nat.lt_succ_self 2)
      S1x250000x64 C rfl rfl 2 rfl (lift i) (off 2) rfl

/-! ## The mean -/

/-- The word `0x40400000` denotes the real `3`. -/
private theorem ofBits_three : Ideal.ofBits .f32 0x40400000#32 = ((3 : ℝ) : EReal) := by
  simp [Ideal.ofBits, Ideal.ieee, -EReal.coe_mul]; norm_num

/-- The reference's last stage, at the extended reals, is `out` of the eight argument arrays. -/
theorem ref_eq_out (x0 : FVec Ideal S250000x64 .f32) (x1 x2 : IVec S4000000 32) (x3 : FVec Ideal S4000000 .f32)
    (x4 : FVec Ideal S64x64 .f32) (x5 : FVec Ideal S64 .f32) (x6 : FVec Ideal S64x64 .f32) (x7 : FVec Ideal S64 .f32) :
    val_main_v42 (F := Ideal) x0 x1 x2 x3 x4 x5 x6 x7 = out x0 x1 x2 x3 x4 x5 x6 x7 := by
  funext i
  -- the three layers of the stack at entry `i`
  obtain ⟨s0, s1, s2⟩ := stack_read (val_main_v36 (F := Ideal) x0) (val_main_v37 (F := Ideal) x0 x1 x2 x3 x4 x5)
    (val_main_v38 (F := Ideal) x0 x1 x2 x3 x4 x5 x6 x7)
    concatenates_S1x250000x64_S1x250000x64_S1x250000x64_S3x250000x64_d0 i
  rw [val_main_v36_apply, unit_idx] at s0
  rw [val_main_v37_apply, show idx_main_v37 (lift i) = i from unit_idx i, v17_eq_layer1] at s1
  rw [val_main_v38_apply, show idx_main_v38 (lift i) = i from unit_idx i, v35_eq_layer2] at s2
  rw [val_main_v42_apply, val_main_v41_apply, val_main_cst_5_apply, val_main_v40_apply, val_main_cst_4_apply,
    Fin.sum_univ_three]
  unfold val_main_v39
  rw [s0, s1, s2]
  show Ideal.div (Ideal.ofBits .f32 0x00000000#32 + (x0 i + layer1 x0 x1 x2 x3 x4 x5 i + layer2 x0 x1 x2 x3 x4 x5 x6 x7 i))
      (Ideal.ofBits .f32 0x40400000#32) = _
  rw [Ideal.ofBits_zero_f32, zero_add, ofBits_three, Ideal.div_coe (by norm_num)]
  rfl

end Cert.Gcn

end
-- ==== Proof.lean ====
/-
  A two-layer graph convolution, computed by two kernels on a packed layout, against its plain reference.

  Both programs aggregate a 250000 × 64 feature table along four million weighted edges (a gather, a scaling and a
  scatter-add: the same host operations in both, carried as one function `agg`), apply a dense layer, aggregate and
  apply a second dense layer, and return the mean of the input and the two layers' outputs. The reference does the
  dense layers as 64-term contractions and the mean as a sum of a stack divided by three. The kernel program reads
  every table two rows at a time (125000 × 128), where a dense layer is one 128-term contraction against the
  block-diagonal weight `diag(Wᵀ, Wᵀ)`: the off-diagonal terms are products with zero, which vanish on the extended
  reals whatever the other factor, so each half of a packed row gets exactly its own row's layer. Its second kernel
  adds the three tables and multiplies by the named constant one third, which is the reference's quotient by three.
  So both programs end with `((x + h₁) + h₂) · ⅓` entry by entry (`Cert.Gcn.out`), with no use of finiteness.

  The frames of the two kernel programs are the generated ones; the reference's frame is its generated run with the
  result dropped; the one ledger entry is the named constant's statement.
-/
import proofs.«412504_j55190329753905_3_alg».proof.Defs
import proofs.«412504_j55190329753905_3_alg».proof.Proof.Gen.Kernel
import proofs.«412504_j55190329753905_3_alg».proof.Proof.Gen.Kernel.Frame
import proofs.«412504_j55190329753905_3_alg».proof.Proof.Gen.KernelIdeal
import proofs.«412504_j55190329753905_3_alg».proof.Proof.Gen.KernelIdeal.Frame
import proofs.«412504_j55190329753905_3_alg».proof.Proof.Gen.ReferenceIdeal
import proofs.«412504_j55190329753905_3_alg».proof.Proof.Gen.ReferenceIdeal.Run
import proofs.«412504_j55190329753905_3_alg».proof.Proof.Gen.ReferenceIdeal.Read
import proofs.«412504_j55190329753905_3_alg».proof.Proof.Gen.Pre_finite_inputs
import proofs.«412504_j55190329753905_3_alg».proof.Proof.KernelRun
import proofs.«412504_j55190329753905_3_alg».proof.Proof.Chain
import proofs.«412504_j55190329753905_3_alg».proof.Proof.RefValue
import Idealize.ShloMosaic.PureOps.IdealRules

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: the table gives the mean's factor the value one third. -/
theorem preserves : Cert.preserves_Kernel_KernelIdeal :=
  IdealRules.named_const.statement Cert.KernelIdeal.κ "inv_3" .f32 0x3EAAAAAB#32 ((1 / 3 : ℝ) : EReal) rfl

/-- Both programs end with `Cert.Gcn.out` of the eight argument arrays, which agree. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.Named.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, Cert.Gcn.ref_eq_out, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
